-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S3072x1024 : Shape := ⟨2, ![3072, 1024]⟩
abbrev S1024x3072 : Shape := ⟨2, ![1024, 3072]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel

variable [Facts]

def fn {F : FTy → Type} [FloatOps F] (main_arg0 : FVec F S4x2048x1024 .f32) (main_arg1 : IVec S3072x1024 32) (main_arg2 : IVec S3072x1024 32) (main_arg3 : IVec S1024x3072 32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  main_v3
-- ==== Kernel.lean ====
abbrev S4x2048x1024 : Shape := ⟨3, ![4, 2048, 1024]⟩
abbrev S3072x1024 : Shape := ⟨2, ![3072, 1024]⟩
abbrev S1024x3072 : Shape := ⟨2, ![1024, 3072]⟩
abbrev S8192x1024 : Shape := ⟨2, ![8192, 1024]⟩
abbrev S_ : Shape := ⟨0, ![]⟩
abbrev S6144x1024 : Shape := ⟨2, ![6144, 1024]⟩
abbrev S256x1024 : Shape := ⟨2, ![256, 1024]⟩
abbrev S256x6144 : Shape := ⟨2, ![256, 6144]⟩
abbrev S256x3072 : Shape := ⟨2, ![256, 3072]⟩

abbrev nBuf : Space → Nat
  | .hbm => 23
  | .vmem => 6
  | .smem => 0
  | _ => 0

abbrev bufTy : (tb : Table) → Fin (tcTables nBuf tb) → BufTy
  | .hbm, ⟨0, _⟩ => ⟨S4x2048x1024, .f32⟩
  | .hbm, ⟨1, _⟩ => ⟨S3072x1024, .i32⟩
  | .hbm, ⟨2, _⟩ => ⟨S3072x1024, .i32⟩
  | .hbm, ⟨3, _⟩ => ⟨S1024x3072, .i32⟩
  | .hbm, ⟨4, _⟩ => ⟨S8192x1024, .f32⟩
  | .hbm, ⟨5, _⟩ => ⟨S3072x1024, .f32⟩
  | .hbm, ⟨6, _⟩ => ⟨S_, .f32⟩
  | .hbm, ⟨7, _⟩ => ⟨S3072x1024, .f32⟩
  | .hbm, ⟨8, _⟩ => ⟨S3072x1024, .f32⟩
  | .hbm, ⟨9, _⟩ => ⟨S3072x1024, .bf16⟩
  | .hbm, ⟨10, _⟩ => ⟨S3072x1024, .f32⟩
  | .hbm, ⟨11, _⟩ => ⟨S_, .f32⟩
  | .hbm, ⟨12, _⟩ => ⟨S3072x1024, .f32⟩
  | .hbm, ⟨13, _⟩ => ⟨S3072x1024, .f32⟩
  | .hbm, ⟨14, _⟩ => ⟨S3072x1024, .bf16⟩
  | .hbm, ⟨15, _⟩ => ⟨S1024x3072, .f32⟩
  | .hbm, ⟨16, _⟩ => ⟨S_, .f32⟩
  | .hbm, ⟨17, _⟩ => ⟨S1024x3072, .f32⟩
  | .hbm, ⟨18, _⟩ => ⟨S1024x3072, .f32⟩
  | .hbm, ⟨19, _⟩ => ⟨S1024x3072, .bf16⟩
  | .hbm, ⟨20, _⟩ => ⟨S6144x1024, .bf16⟩
  | .hbm, ⟨21, _⟩ => ⟨S8192x1024, .f32⟩
  | .hbm, ⟨22, _⟩ => ⟨S4x2048x1024, .f32⟩
  | .local _ .vmem, ⟨0, _⟩ => ⟨S256x1024, .f32⟩
  | .local _ .vmem, ⟨1, _⟩ => ⟨S256x1024, .f32⟩
  | .local _ .vmem, ⟨2, _⟩ => ⟨S6144x1024, .bf16⟩
  | .local _ .vmem, ⟨3, _⟩ => ⟨S1024x3072, .bf16⟩
  | .local _ .vmem, ⟨4, _⟩ => ⟨S256x1024, .f32⟩
  | .local _ .vmem, ⟨5, _⟩ => ⟨S256x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S6144x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S4x2048x1024_S8192x1024 : S4x2048x1024.ShapeCasts S8192x1024
  bcast_S_S3072x1024 : S_.BroadcastsInDim S3072x1024 (![] : Fin 0 → Fin S3072x1024.rank)
  bitsLt_bf16_f32 : FTy.bits .bf16 < FTy.bits .f32
  bcast_S_S1024x3072 : S_.BroadcastsInDim S1024x3072 (![] : Fin 0 → Fin S1024x3072.rank)
  concatenates_S3072x1024_S3072x1024_S6144x1024_d0 : Shape.Concatenates [S3072x1024, S3072x1024] S6144x1024 0
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S6144x1024_S6144x1024_0_0 : ∀ a, (![0, 0] : Fin 2 → Nat) a + S6144x1024.size a ≤ S6144x1024.size a
  h_S6144x1024 : 0 < S6144x1024.numel
  shapeCasts_S6144x1024_S6144x1024 : S6144x1024.ShapeCasts S6144x1024
  slices_S256x6144_o0_0_S256x3072 : S256x6144.Slices ![0, 0] S256x3072
  slices_S256x6144_o0_3072_S256x3072 : S256x6144.Slices ![0, 3072] S256x3072
  inb_S1024x3072_S1024x3072_0_0 : ∀ a, (![0, 0] : Fin 2 → Nat) a + S1024x3072.size a ≤ S1024x3072.size a
  h_S1024x3072 : 0 < S1024x3072.numel
  shapeCasts_S1024x3072_S1024x3072 : S1024x3072.ShapeCasts S1024x3072
  shapeCasts_S8192x1024_S4x2048x1024 : S8192x1024.ShapeCasts S4x2048x1024
  dot_S256x1024_S6144x1024_S256x6144_1_1_0_0_n_n_wf : DotDims.WF S256x1024 S6144x1024 S256x6144 [1] [1] [0] [0] [] []
  dot_S256x3072_S1024x3072_S256x1024_1_1_0_0_n_n_wf : DotDims.WF S256x3072 S1024x3072 S256x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S8192x1024.size a
  hwx0_0 : ∀ i : grid0.Coords, EltTy.bits .f32 = 32 ∨ (Rect.block (s := S8192x1024) S256x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S6144x1024.size a ≤ S6144x1024.size a
  hwx0_1 : ∀ i : grid0.Coords, EltTy.bits .bf16 = 32 ∨ (Rect.block (s := S6144x1024) S6144x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x3072.size a ≤ S1024x3072.size a
  hwx0_2 : ∀ i : grid0.Coords, EltTy.bits .bf16 = 32 ∨ (Rect.block (s := S1024x3072) S1024x3072.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x1024.size a ≤ S8192x1024.size a
  hwx0_3 : ∀ i : grid0.Coords, EltTy.bits .f32 = 32 ∨ (Rect.block (s := S8192x1024) S256x1024.size (cc0_transform_3 i) (hinb0_3 i)).WholeWords (EltTy.packing .f32)

variable [Facts₀]

def dot_S256x1024_S6144x1024_S256x6144_1_1_0_0_n_n : DotDims S256x1024 S6144x1024 S256x6144 where
  lhsContracting := [1]
  rhsContracting := [1]
  lhsNonContracting := [0]
  rhsNonContracting := [0]
  lhsBatch := []
  rhsBatch := []
  wf := dot_S256x1024_S6144x1024_S256x6144_1_1_0_0_n_n_wf
def dot_S256x3072_S1024x3072_S256x1024_1_1_0_0_n_n : DotDims S256x3072 S1024x3072 S256x1024 where
  lhsContracting := [1]
  rhsContracting := [1]
  lhsNonContracting := [0]
  rhsNonContracting := [0]
  lhsBatch := []
  rhsBatch := []
  wf := dot_S256x3072_S1024x3072_S256x1024_1_1_0_0_n_n_wf

abbrev win0_0 : Pipeline.Window sig grid0 :=
  Pipeline.Window.ofSpec (Memref.whole main_v0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S6144x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v12) S1024x3072.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S256x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x2048x1024 : Shape := ⟨3, ![4, 2048, 1024]⟩
abbrev S3072x1024 : Shape := ⟨2, ![3072, 1024]⟩
abbrev S1024x3072 : Shape := ⟨2, ![1024, 3072]⟩
abbrev S_ : Shape := ⟨0, ![]⟩
abbrev S4x2048x3072 : Shape := ⟨3, ![4, 2048, 3072]⟩

abbrev nBuf : Space → Nat
  | .hbm => 29
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S3072x1024, .i32⟩
  | .hbm, ⟨2, _⟩ => ⟨S3072x1024, .i32⟩
  | .hbm, ⟨3, _⟩ => ⟨S1024x3072, .i32⟩
  | .hbm, ⟨4, _⟩ => ⟨S3072x1024, .f32⟩
  | .hbm, ⟨5, _⟩ => ⟨S_, .f32⟩
  | .hbm, ⟨6, _⟩ => ⟨S3072x1024, .f32⟩
  | .hbm, ⟨7, _⟩ => ⟨S3072x1024, .f32⟩
  | .hbm, ⟨8, _⟩ => ⟨S3072x1024, .f32⟩
  | .hbm, ⟨9, _⟩ => ⟨S_, .f32⟩
  | .hbm, ⟨10, _⟩ => ⟨S3072x1024, .f32⟩
  | .hbm, ⟨11, _⟩ => ⟨S3072x1024, .f32⟩
  | .hbm, ⟨12, _⟩ => ⟨S1024x3072, .f32⟩
  | .hbm, ⟨13, _⟩ => ⟨S_, .f32⟩
  | .hbm, ⟨14, _⟩ => ⟨S1024x3072, .f32⟩
  | .hbm, ⟨15, _⟩ => ⟨S1024x3072, .f32⟩
  | .hbm, ⟨16, _⟩ => ⟨S4x2048x3072, .f32⟩
  | .hbm, ⟨17, _⟩ => ⟨S4x2048x3072, .f32⟩
  | .hbm, ⟨18, _⟩ => ⟨S4x2048x3072, .f32⟩
  | .hbm, ⟨19, _⟩ => ⟨S4x2048x3072, .f32⟩
  | .hbm, ⟨20, _⟩ => ⟨S_, .f32⟩
  | .hbm, ⟨21, _⟩ => ⟨S4x2048x3072, .f32⟩
  | .hbm, ⟨22, _⟩ => ⟨S4x2048x3072, .f32⟩
  | .hbm, ⟨23, _⟩ => ⟨S_, .f32⟩
  | .hbm, ⟨24, _⟩ => ⟨S4x2048x3072, .f32⟩
  | .hbm, ⟨25, _⟩ => ⟨S4x2048x3072, .f32⟩
  | .hbm, ⟨26, _⟩ => ⟨S4x2048x3072, .f32⟩
  | .hbm, ⟨27, _⟩ => ⟨S4x2048x3072, .f32⟩
  | .hbm, ⟨28, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_call0_v0 : Ref sig .tc := ⟨.hbm, 18, rfl⟩
abbrev main_call0_v1 : Ref sig .tc := ⟨.hbm, 19, rfl⟩
abbrev main_call0_cst : Ref sig .tc := ⟨.hbm, 20, rfl⟩
abbrev main_call0_v2 : Ref sig .tc := ⟨.hbm, 21, rfl⟩
abbrev main_call0_v3 : Ref sig .tc := ⟨.hbm, 22, rfl⟩
abbrev main_call0_cst_0 : Ref sig .tc := ⟨.hbm, 23, rfl⟩
abbrev main_call0_v4 : Ref sig .tc := ⟨.hbm, 24, rfl⟩
abbrev main_call0_v5 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩

abbrev nD : Nat := 1
abbrev τ : Topo := Topo.v7x

variable {F : FTy → Type} [FloatOps F]

class Facts₀ : Prop where
  bcast_S_S3072x1024 : S_.BroadcastsInDim S3072x1024 (![] : Fin 0 → Fin S3072x1024.rank)
  bcast_S_S1024x3072 : S_.BroadcastsInDim S1024x3072 (![] : Fin 0 → Fin S1024x3072.rank)
  bcast_S_S4x2048x3072 : S_.BroadcastsInDim S4x2048x3072 (![] : Fin 0 → Fin S4x2048x3072.rank)
  dot_S4x2048x1024_S3072x1024_S4x2048x3072_2_1_01_0_n_n_wf : DotDims.WF S4x2048x1024 S3072x1024 S4x2048x3072 [2] [1] [0, 1] [0] [] []
  dot_S4x2048x3072_S1024x3072_S4x2048x1024_2_1_01_0_n_n_wf : DotDims.WF S4x2048x3072 S1024x3072 S4x2048x1024 [2] [1] [0, 1] [0] [] []

variable [Facts₀]

def dot_S4x2048x1024_S3072x1024_S4x2048x3072_2_1_01_0_n_n : DotDims S4x2048x1024 S3072x1024 S4x2048x3072 where
  lhsContracting := [2]
  rhsContracting := [1]
  lhsNonContracting := [0, 1]
  rhsNonContracting := [0]
  lhsBatch := []
  rhsBatch := []
  wf := dot_S4x2048x1024_S3072x1024_S4x2048x3072_2_1_01_0_n_n_wf
def dot_S4x2048x3072_S1024x3072_S4x2048x1024_2_1_01_0_n_n : DotDims S4x2048x3072 S1024x3072 S4x2048x1024 where
  lhsContracting := [2]
  rhsContracting := [1]
  lhsNonContracting := [0, 1]
  rhsNonContracting := [0]
  lhsBatch := []
  rhsBatch := []
  wf := dot_S4x2048x3072_S1024x3072_S4x2048x1024_2_1_01_0_n_n_wf

class Facts : Prop extends Facts₀ where

variable [Facts]
-- ==== Proof.Spec.lean ====
/-
  The function both programs compute, over the extended reals.

  Inputs: activations x[b,s,k] (4 × 2048 × 1024) and three tables of stored integers,
  wg[h,k] and wu[h,k] (3072 × 1024) and wd[d,h] (1024 × 3072). A stored integer w stands for the
  real number w·c, where c is the scale constant (the single-precision number nearest 1/127; it is the
  same word in both programs and is never evaluated). With

      gate[b,s,h] = Σ_k x[b,s,k] · (wg[h,k]·c),      up[b,s,h] = Σ_k x[b,s,k] · (wu[h,k]·c),

  the hidden value is  hid = (gate · σ(gate)) · up  with  σ(t) = 1 / (1 + e^(-t)),  and the result is

      out[b,s,d] = Σ_h hid[b,s,h] · (wd[d,h]·c).

  Every sum is a finite sum in the commutative monoid of the extended reals, so neither the order of
  its terms nor the grouping of the rows (b,s) into tiles changes it: no step below needs the inputs
  to be finite.
-/
import Idealize.ShloMosaic.PureOps.Ideal
import Idealize.ShloMosaic.Lib.ValueIdx
import Idealize.ShloMosaic.Lib.IdealHost

noncomputable section

namespace Cert.Swiglu

open Idealize.ShloMosaic Idealize.ShloMosaic.ValueIdx

/-- The shape of the activations and of the result. -/
abbrev Act : Shape := ⟨3, ![4, 2048, 1024]⟩
/-- The shape of the two up-projection tables (hidden × model). -/
abbrev WUp : Shape := ⟨2, ![3072, 1024]⟩
/-- The shape of the down-projection table (model × hidden). -/
abbrev WDown : Shape := ⟨2, ![1024, 3072]⟩

/-- A stored integer as the real it stands for: the integer, read signed, times the scale constant. -/
def deq (w : BitVec 32) : EReal := ((w.toInt : ℝ) : EReal) * Ideal.ofBits .f32 0x3C010204#32

/-- One up-projection: row (b,s) of the activations against row h of a dequantised table. -/
def proj (x : Act.Idx → EReal) (w : WUp.Idx → BitVec 32) (b : Fin 4) (s : Fin 2048) (h : Fin 3072) : EReal :=
  ∑ k : Fin 1024, x (ix3 b s k) * deq (w (ix2 h k))

/-- The hidden value: the gate times its logistic, times the up value. -/
def hid (x : Act.Idx → EReal) (wg wu : WUp.Idx → BitVec 32) (b : Fin 4) (s : Fin 2048) (h : Fin 3072) : EReal :=
  proj x wg b s h * Ideal.logistic (proj x wg b s h) * proj x wu b s h

/-- The result: row (b,s) of the hidden values against row d of the dequantised down table. -/
def out (x : Act.Idx → EReal) (wg wu : WUp.Idx → BitVec 32) (wd : WDown.Idx → BitVec 32) : Act.Idx → EReal :=
  fun i => ∑ h : Fin 3072, hid x wg wu (i 0) (i 1) h * deq (wd (ix2 (i 2) h))

/-- The logistic function written out with the literal one, as a reference that expands it spells it,
    is the logistic function: `1 / (1 + e^(-t))` is its definition. -/
theorem logistic_spelled (t : EReal) :
    Ideal.div (Ideal.ofBits .f32 0x3F800000#32) (Ideal.ofBits .f32 0x3F800000#32 + Ideal.exp (-t)) = Ideal.logistic t := by
  rw [Ideal.ofBits_one_f32]; rfl

end Cert.Swiglu

end
-- ==== Proof.KernelBody.lean ====
/-
  What one call of the kernel body stores, as a formula of the three blocks it loads.

  The body loads a tile X of 256 activation rows (256 × 1024), the stacked table T (6144 × 1024: the
  gate table's 3072 rows, then the up table's) and the down table D (1024 × 3072). It forms
  P = X · Tᵀ (256 × 6144) in one product, takes the gate values as columns 0 … 3071 of P and the up
  values as columns 3072 … 6143, forms (gate · σ(gate)) · up, and stores that times Dᵀ. Changes of
  float format and the shape casts to the same shape are the identity here, and a product into a zero
  accumulator is the plain sum over the contracted axis. So the entry stored at (p, q) is

      Σ_h ( g · σ(g) · u ) · D[q,h],   g = Σ_k X[p,k] · T[h,k],   u = Σ_k X[p,k] · T[3072 + h, k].
-/
import proofs.«426624_j52106543235557_3_alg».proof.Proof.Gen.KernelIdeal.Skeleton
import proofs.«426624_j52106543235557_3_alg».proof.Proof.Spec
import Idealize.ShloMosaic.Lib.Pipeline.Value
import Idealize.ShloMosaic.Lib.ValueIdx
import Idealize.ShloMosaic.PureOps.Ideal.Laws

noncomputable section

namespace Cert.KernelIdeal.Body

open Cert.KernelIdeal Cert.KernelIdeal.Gen
open Idealize.ShloMosaic Idealize.ShloMosaic.TcCoe Idealize.ShloMosaic.ValueIdx

/-! ## The first product, X · Tᵀ, at an index -/

theorem lhs_up_0 (i : S256x6144.Idx) (q : dot_S256x1024_S6144x1024_S256x6144_1_1_0_0_n_n.contr.Idx) :
    (dot_S256x1024_S6144x1024_S256x6144_1_1_0_0_n_n.lhsIdx i q 0).val = (i 0).val := by
  unfold DotDims.lhsIdx
  rw [dif_neg (show ¬(0 : Fin S256x1024.rank) ∈ dot_S256x1024_S6144x1024_S256x6144_1_1_0_0_n_n.lhsBatch by decide), dif_pos (show (0 : Fin S256x1024.rank) ∈ dot_S256x1024_S6144x1024_S256x6144_1_1_0_0_n_n.lhsNonContracting by decide)]
  rfl
theorem lhs_up_1 (i : S256x6144.Idx) (q : dot_S256x1024_S6144x1024_S256x6144_1_1_0_0_n_n.contr.Idx) :
    (dot_S256x1024_S6144x1024_S256x6144_1_1_0_0_n_n.lhsIdx i q 1).val = (q ⟨0, by decide⟩).val :=
  dot_S256x1024_S6144x1024_S256x6144_1_1_0_0_n_n.lhsIdx_val_of_single rfl i q
theorem rhs_up_0 (i : S256x6144.Idx) (q : dot_S256x1024_S6144x1024_S256x6144_1_1_0_0_n_n.contr.Idx) :
    (dot_S256x1024_S6144x1024_S256x6144_1_1_0_0_n_n.rhsIdx i q 0).val = (i 1).val := by
  unfold DotDims.rhsIdx
  rw [dif_neg (show ¬(0 : Fin S6144x1024.rank) ∈ dot_S256x1024_S6144x1024_S256x6144_1_1_0_0_n_n.rhsBatch by decide), dif_pos (show (0 : Fin S6144x1024.rank) ∈ dot_S256x1024_S6144x1024_S256x6144_1_1_0_0_n_n.rhsNonContracting by decide)]
  rfl
theorem rhs_up_1 (i : S256x6144.Idx) (q : dot_S256x1024_S6144x1024_S256x6144_1_1_0_0_n_n.contr.Idx) :
    (dot_S256x1024_S6144x1024_S256x6144_1_1_0_0_n_n.rhsIdx i q 1).val = (q ⟨0, by decide⟩).val :=
  dot_S256x1024_S6144x1024_S256x6144_1_1_0_0_n_n.rhsIdx_val_of_single rfl i q

/-- Entry (p, j) of X · Tᵀ is the contraction of row p of X with row j of T. -/
theorem upProduct_apply (l : FVec Ideal S256x1024 .bf16) (r : FVec Ideal S6144x1024 .bf16) (i : S256x6144.Idx) :
    matmul dot_S256x1024_S6144x1024_S256x6144_1_1_0_0_n_n none l r (constant (F := Ideal) S256x6144 .f32 0x00000000#32) i
      = ∑ k : Fin 1024, l (ix2 (i 0) k) * r (ix2 (i 1) k) := by
  simp only [matmul]
  rw [Ideal.matmul_constant_zero_apply, ← Equiv.sum_comp (ValueIdx.contrEquiv1 dot_S256x1024_S6144x1024_S256x6144_1_1_0_0_n_n 1024 rfl rfl).symm]
  refine Finset.sum_congr rfl fun k _ => ?_
  have hk := ValueIdx.contrEquiv1_symm_val dot_S256x1024_S6144x1024_S256x6144_1_1_0_0_n_n 1024 rfl rfl k
  have el : dot_S256x1024_S6144x1024_S256x6144_1_1_0_0_n_n.lhsIdx i ((ValueIdx.contrEquiv1 dot_S256x1024_S6144x1024_S256x6144_1_1_0_0_n_n 1024 rfl rfl).symm k) = ix2 (i 0) k := funext fun a => Fin.ext (by
    match a with
    | ⟨0, _⟩ => exact lhs_up_0 _ _
    | ⟨1, _⟩ => exact (lhs_up_1 _ _).trans hk)
  have er : dot_S256x1024_S6144x1024_S256x6144_1_1_0_0_n_n.rhsIdx i ((ValueIdx.contrEquiv1 dot_S256x1024_S6144x1024_S256x6144_1_1_0_0_n_n 1024 rfl rfl).symm k) = ix2 (i 1) k := funext fun a => Fin.ext (by
    match a with
    | ⟨0, _⟩ => exact rhs_up_0 _ _
    | ⟨1, _⟩ => exact (rhs_up_1 _ _).trans hk)
  rw [el, er]
  rfl

/-! ## The second product, H · Dᵀ, at an index -/

theorem lhs_down_0 (i : S256x1024.Idx) (q : dot_S256x3072_S1024x3072_S256x1024_1_1_0_0_n_n.contr.Idx) :
    (dot_S256x3072_S1024x3072_S256x1024_1_1_0_0_n_n.lhsIdx i q 0).val = (i 0).val := by
  unfold DotDims.lhsIdx
  rw [dif_neg (show ¬(0 : Fin S256x3072.rank) ∈ dot_S256x3072_S1024x3072_S256x1024_1_1_0_0_n_n.lhsBatch by decide), dif_pos (show (0 : Fin S256x3072.rank) ∈ dot_S256x3072_S1024x3072_S256x1024_1_1_0_0_n_n.lhsNonContracting by decide)]
  rfl
theorem lhs_down_1 (i : S256x1024.Idx) (q : dot_S256x3072_S1024x3072_S256x1024_1_1_0_0_n_n.contr.Idx) :
    (dot_S256x3072_S1024x3072_S256x1024_1_1_0_0_n_n.lhsIdx i q 1).val = (q ⟨0, by decide⟩).val :=
  dot_S256x3072_S1024x3072_S256x1024_1_1_0_0_n_n.lhsIdx_val_of_single rfl i q
theorem rhs_down_0 (i : S256x1024.Idx) (q : dot_S256x3072_S1024x3072_S256x1024_1_1_0_0_n_n.contr.Idx) :
    (dot_S256x3072_S1024x3072_S256x1024_1_1_0_0_n_n.rhsIdx i q 0).val = (i 1).val := by
  unfold DotDims.rhsIdx
  rw [dif_neg (show ¬(0 : Fin S1024x3072.rank) ∈ dot_S256x3072_S1024x3072_S256x1024_1_1_0_0_n_n.rhsBatch by decide), dif_pos (show (0 : Fin S1024x3072.rank) ∈ dot_S256x3072_S1024x3072_S256x1024_1_1_0_0_n_n.rhsNonContracting by decide)]
  rfl
theorem rhs_down_1 (i : S256x1024.Idx) (q : dot_S256x3072_S1024x3072_S256x1024_1_1_0_0_n_n.contr.Idx) :
    (dot_S256x3072_S1024x3072_S256x1024_1_1_0_0_n_n.rhsIdx i q 1).val = (q ⟨0, by decide⟩).val :=
  dot_S256x3072_S1024x3072_S256x1024_1_1_0_0_n_n.rhsIdx_val_of_single rfl i q

/-- Entry (p, q) of H · Dᵀ is the contraction of row p of H with row q of D. -/
theorem downProduct_apply (l : FVec Ideal S256x3072 .bf16) (r : FVec Ideal S1024x3072 .bf16) (i : S256x1024.Idx) :
    matmul dot_S256x3072_S1024x3072_S256x1024_1_1_0_0_n_n none l r (constant (F := Ideal) S256x1024 .f32 0x00000000#32) i
      = ∑ h : Fin 3072, l (ix2 (i 0) h) * r (ix2 (i 1) h) := by
  simp only [matmul]
  rw [Ideal.matmul_constant_zero_apply, ← Equiv.sum_comp (ValueIdx.contrEquiv1 dot_S256x3072_S1024x3072_S256x1024_1_1_0_0_n_n 3072 rfl rfl).symm]
  refine Finset.sum_congr rfl fun k _ => ?_
  have hk := ValueIdx.contrEquiv1_symm_val dot_S256x3072_S1024x3072_S256x1024_1_1_0_0_n_n 3072 rfl rfl k
  have el : dot_S256x3072_S1024x3072_S256x1024_1_1_0_0_n_n.lhsIdx i ((ValueIdx.contrEquiv1 dot_S256x3072_S1024x3072_S256x1024_1_1_0_0_n_n 3072 rfl rfl).symm k) = ix2 (i 0) k := funext fun a => Fin.ext (by
    match a with
    | ⟨0, _⟩ => exact lhs_down_0 _ _
    | ⟨1, _⟩ => exact (lhs_down_1 _ _).trans hk)
  have er : dot_S256x3072_S1024x3072_S256x1024_1_1_0_0_n_n.rhsIdx i ((ValueIdx.contrEquiv1 dot_S256x3072_S1024x3072_S256x1024_1_1_0_0_n_n 3072 rfl rfl).symm k) = ix2 (i 1) k := funext fun a => Fin.ext (by
    match a with
    | ⟨0, _⟩ => exact rhs_down_0 _ _
    | ⟨1, _⟩ => exact (rhs_down_1 _ _).trans hk)
  rw [el, er]
  rfl

/-! ## The two halves of the first product -/

/-- Column h of the left half is column h of the whole. -/
theorem gateHalf_apply (v : S256x6144.Idx → EReal) (p : Fin 256) (h : Fin 3072) :
    extractStridedSlice S256x3072 ![0, 0] v slices_S256x6144_o0_0_S256x3072 (ix2 p h)
      = v (ix2 p (⟨h.val, by have := h.isLt; omega⟩ : Fin 6144)) :=
  extractStridedSlice_apply _ v _ (ix2 p h) (ix2 p (⟨h.val, by have := h.isLt; omega⟩ : Fin 6144)) (fun a => by
    match a with
    | ⟨0, _⟩ => exact (Nat.zero_add _).symm
    | ⟨1, _⟩ => exact (Nat.zero_add _).symm)

/-- Column h of the right half is column 3072 + h of the whole. -/
theorem upHalf_apply (v : S256x6144.Idx → EReal) (p : Fin 256) (h : Fin 3072) :
    extractStridedSlice S256x3072 ![0, 3072] v slices_S256x6144_o0_3072_S256x3072 (ix2 p h)
      = v (ix2 p (⟨3072 + h.val, by have := h.isLt; omega⟩ : Fin 6144)) :=
  extractStridedSlice_apply _ v _ (ix2 p h) (ix2 p (⟨3072 + h.val, by have := h.isLt; omega⟩ : Fin 6144)) (fun a => by
    match a with
    | ⟨0, _⟩ => exact (Nat.zero_add _).symm
    | ⟨1, _⟩ => rfl)

/-! ## The stored entry -/

/-- Row p of the tile against row j of the stacked table. -/
def rowDot (x : S256x1024.Idx → EReal) (tab : S6144x1024.Idx → EReal) (p : Fin 256) (j : Fin 6144) : EReal :=
  ∑ k : Fin 1024, x (ix2 p k) * tab (ix2 j k)

/-- The hidden value of the tile at (p, h): gate from row h of the stacked table, up from row 3072 + h. -/
def tileHid (x : S256x1024.Idx → EReal) (tab : S6144x1024.Idx → EReal) (p : Fin 256) (h : Fin 3072) : EReal :=
  rowDot x tab p ⟨h.val, by have := h.isLt; omega⟩ * Ideal.logistic (rowDot x tab p ⟨h.val, by have := h.isLt; omega⟩)
    * rowDot x tab p ⟨3072 + h.val, by have := h.isLt; omega⟩

/-- The entry the body stores at (p, q). -/
theorem stored_apply (x : Vec Ideal S256x1024 .f32) (tab : Vec Ideal S6144x1024 .bf16) (dn : Vec Ideal S1024x3072 .bf16)
    (p : Fin 256) (q : Fin 1024) :
    k0_pay1 (F := Ideal) x tab dn (ix2 p q) = ∑ h : Fin 3072, tileHid x tab p h * dn (ix2 q h) := by
  unfold k0_pay1
  rw [downProduct_apply]
  refine Finset.sum_congr rfl fun h _ => ?_
  rw [shapeCast_self, shapeCast_self, shapeCast_self]
  rw [truncf_apply, mulf_apply, mulf_apply, gateHalf_apply, upHalf_apply]
  show _ * FloatOps.logistic _ * _ * _ = _
  rw [gateHalf_apply, upProduct_apply, upProduct_apply]
  rfl

/-- When row p of the tile is row (b,s) of the activations, and the stacked table holds the dequantised gate table
    over the dequantised up table, the tile's hidden value at (p, h) is the specification's at (b, s, h). -/
theorem tileHid_eq (xb : S256x1024.Idx → EReal) (tab : S6144x1024.Idx → EReal)
    (x : Swiglu.Act.Idx → EReal) (wg wu : Swiglu.WUp.Idx → BitVec 32) (b : Fin 4) (s : Fin 2048) (p : Fin 256)
    (hx : ∀ k : Fin 1024, xb (ix2 p k) = x (ix3 b s k))
    (hg : ∀ (h : Fin 3072) (k : Fin 1024), tab (ix2 (⟨h.val, by have := h.isLt; omega⟩ : Fin 6144) k) = Swiglu.deq (wg (ix2 h k)))
    (hu : ∀ (h : Fin 3072) (k : Fin 1024), tab (ix2 (⟨3072 + h.val, by have := h.isLt; omega⟩ : Fin 6144) k) = Swiglu.deq (wu (ix2 h k)))
    (h : Fin 3072) : tileHid xb tab p h = Swiglu.hid x wg wu b s h := by
  have eg : rowDot xb tab p ⟨h.val, by have := h.isLt; omega⟩ = Swiglu.proj x wg b s h := by
    unfold rowDot Swiglu.proj
    exact Finset.sum_congr rfl fun k _ => by rw [hx, hg]
  have eu : rowDot xb tab p ⟨3072 + h.val, by have := h.isLt; omega⟩ = Swiglu.proj x wu b s h := by
    unfold rowDot Swiglu.proj
    exact Finset.sum_congr rfl fun k _ => by rw [hx, hu]
  unfold tileHid Swiglu.hid
  rw [eg, eu]

end Cert.KernelIdeal.Body

end
-- ==== Proof.KernelArrays.lean ====
/-
  The three arrays the kernel's windows stage, as the host lines before the call leave them, read at an index.

  * The activations re-laid as 8192 rows of 1024: row r is row (b, s) with r = 2048·b + s.
  * The stacked table, 6144 × 1024: rows 0 … 3071 are the dequantised gate table, rows 3072 … 6143 the
    dequantised up table (a two-piece concatenation along the rows).
  * The dequantised down table.
  Dequantising is (integer)·c followed by a change of float format, which is the identity here.
-/
import proofs.«426624_j52106543235557_3_alg».proof.Proof.Gen.KernelIdeal.Frame
import proofs.«426624_j52106543235557_3_alg».proof.Proof.Spec
import Idealize.ShloMosaic.Lib.StableHlo.Run
import Idealize.ShloMosaic.Lib.Pipeline.Value
import Idealize.ShloMosaic.Lib.ValueIdx
import Idealize.ShloMosaic.PureOps.Ideal

noncomputable section

namespace Cert.KernelIdeal.Arrays

open Cert.KernelIdeal Cert.KernelIdeal.Gen
open Idealize.ShloMosaic Idealize.ShloMosaic.TcCoe Idealize.SL.Sem Idealize.ShloMosaic.StableHlo Idealize.ShloMosaic.ValueIdx
open Cert.Swiglu

variable (m : (ℓ : Loc nD τ sig) → Buf (Elt Ideal) ℓ)

/-- The four argument arrays as launched, at their literal types. -/
abbrev argX (c : Dev nD) : S4x2048x1024.Idx → EReal := m ((c : Thread nD τ).loc main_arg0)
abbrev argG (c : Dev nD) : S3072x1024.Idx → BitVec 32 := m ((c : Thread nD τ).loc main_arg1)
abbrev argU (c : Dev nD) : S3072x1024.Idx → BitVec 32 := m ((c : Thread nD τ).loc main_arg2)
abbrev argD (c : Dev nD) : S1024x3072.Idx → BitVec 32 := m ((c : Thread nD τ).loc main_arg3)

/-- A table dequantised as the program spells it: (integer)·c, then the change of format. -/
abbrev deqTab (s : Shape) (hb : S_.BroadcastsInDim s (![] : Fin 0 → Fin s.rank)) (w : s.Idx → BitVec 32) : FVec Ideal s .bf16 :=
  truncf .bf16 (mulf (sitofp (F := Ideal) .f32 w) (broadcastInDim s ![] hb (constant (F := Ideal) S_ .f32 0x3C010204#32))) bitsLt_bf16_f32

/-- Its entries are the dequantised integers. -/
theorem deqTab_apply (s : Shape) (hb : S_.BroadcastsInDim s (![] : Fin 0 → Fin s.rank)) (w : s.Idx → BitVec 32) (i : s.Idx) :
    deqTab s hb w i = deq (w i) := by
  show FloatOps.mulf (F := Ideal) (φ := .f32) (FloatOps.sitofp .f32 (w i)) (broadcastInDim s ![] hb (constant (F := Ideal) S_ .f32 0x3C010204#32) i) = _
  rw [broadcastInDim_apply _ hb _ i (fun a => a.elim0) (fun a => a.elim0)]
  rfl

/-- Window 0's array: the activations re-laid as 8192 rows. -/
theorem rows_eq (c : Dev nD) :
    V m c main_v0 = shapeCast S8192x1024 (argX m c) shapeCasts_S4x2048x1024_S8192x1024 := by
  show StableHlo.after hostOps0 (fun b => m (c, b)) (Proc.devRef .tc main_v0) = _
  after_results <;> rfl

/-- Row r = 2048·b + s of it is row (b, s) of the activations. -/
theorem rows_apply (c : Dev nD) (r : Fin 8192) (k : Fin 1024) (b : Fin 4) (s : Fin 2048) (hr : r.val = 2048 * b.val + s.val) :
    V m c main_v0 (ix2 r k) = argX m c (ix3 b s k) := by
  rw [rows_eq]
  exact shapeCast_apply _ _ (ix2 r k) (ix3 b s k) (by
    rw [Shape.rowMajor_val_three, Shape.rowMajor_val_two]
    show (b.val * 2048 + s.val) * 1024 + k.val = r.val * 1024 + k.val
    omega)

/-- Window 1's array: the dequantised gate table stacked over the dequantised up table. -/
theorem stacked_eq (c : Dev nD) :
    V m c main_v13 = concatenate S6144x1024 0
      [⟨S3072x1024, deqTab S3072x1024 bcast_S_S3072x1024 (argG m c)⟩, ⟨S3072x1024, deqTab S3072x1024 bcast_S_S3072x1024 (argU m c)⟩]
      concatenates_S3072x1024_S3072x1024_S6144x1024_d0 := by
  show StableHlo.after hostOps0 (fun b => m (c, b)) (Proc.devRef .tc main_v13) = _
  after_results <;> rfl

/-- Its first 3072 rows are the gate table's. -/
theorem stacked_gate_apply (c : Dev nD) (h : Fin 3072) (k : Fin 1024) :
    V m c main_v13 (ix2 (⟨h.val, by have := h.isLt; omega⟩ : Fin 6144) k) = deq (argG m c (ix2 h k)) := by
  rw [stacked_eq]
  rw [concatenate_pair_apply_left (0 : Fin S6144x1024.rank) _ _ concatenates_S3072x1024_S3072x1024_S6144x1024_d0
    (ix2 (⟨h.val, by have := h.isLt; omega⟩ : Fin 6144) k) rfl (ix2 h k)
    (fun b => by match b with | ⟨0, _⟩ => rfl | ⟨1, _⟩ => rfl)]
  exact deqTab_apply _ _ _ _

/-- Its last 3072 rows are the up table's. -/
theorem stacked_up_apply (c : Dev nD) (h : Fin 3072) (k : Fin 1024) :
    V m c main_v13 (ix2 (⟨3072 + h.val, by have := h.isLt; omega⟩ : Fin 6144) k) = deq (argU m c (ix2 h k)) := by
  rw [stacked_eq]
  rw [concatenate_pair_apply_right (0 : Fin S6144x1024.rank) _ _ concatenates_S3072x1024_S3072x1024_S6144x1024_d0
    (ix2 (⟨3072 + h.val, by have := h.isLt; omega⟩ : Fin 6144) k) rfl rfl (ix2 h k)
    (fun b hb => by match b with | ⟨0, _⟩ => exact absurd rfl hb | ⟨1, _⟩ => rfl)
    (by show h.val + 3072 = 3072 + h.val; omega)]
  exact deqTab_apply _ _ _ _

/-- Window 2's array: the dequantised down table. -/
theorem down_eq (c : Dev nD) :
    V m c main_v12 = deqTab S1024x3072 bcast_S_S1024x3072 (argD m c) := by
  show StableHlo.after hostOps0 (fun b => m (c, b)) (Proc.devRef .tc main_v12) = _
  after_results <;> rfl

theorem down_apply (c : Dev nD) (q : Fin 1024) (h : Fin 3072) :
    V m c main_v12 (ix2 q h) = deq (argD m c (ix2 q h)) := by
  rw [down_eq]
  exact deqTab_apply _ _ _ _

end Cert.KernelIdeal.Arrays

end
-- ==== Proof.KernelValue.lean ====
/-
  The kernel's result array, from what each grid point writes back.

  Grid point t (of 32) stages rows 256·t … 256·t + 255 of the re-laid activations, the whole stacked table and
  the whole down table, and writes back rows 256·t … 256·t + 255 of the result. By the body's formula and the
  contents of the staged arrays, the entry it writes at local position (p, q) is the specification at
  (b, s, q), where 2048·b + s = 256·t + p is the global row. The 32 row bands tile the 8192 rows, so after the
  call the result array is the specification re-laid as 8192 rows; the host line after the call lays it back out
  as 4 × 2048 × 1024, which undoes the re-laying.
-/
import proofs.«426624_j52106543235557_3_alg».proof.Proof.KernelBody
import proofs.«426624_j52106543235557_3_alg».proof.Proof.KernelArrays

set_option maxRecDepth 16384

noncomputable section

namespace Cert.KernelIdeal.KValue

open Cert.KernelIdeal Cert.KernelIdeal.Gen Cert.KernelIdeal.Body Cert.KernelIdeal.Arrays
open Idealize.ShloMosaic Idealize.ShloMosaic.TcCoe Idealize.SL.Sem Idealize.ShloMosaic.StableHlo Idealize.ShloMosaic.ValueIdx
open Idealize.ShloMosaic.Pipeline (Dat)
open Cert.Swiglu

variable (m : (ℓ : Loc nD τ sig) → Buf (Elt Ideal) ℓ) (ρ : Dev nD → PrngReg)

/-- The specification of the launched arguments. -/
abbrev spec (c : Dev nD) : S4x2048x1024.Idx → EReal := out (argX m c) (argG m c) (argU m c) (argD m c)

/-- The same re-laid as 8192 rows: what the call's result array ends holding. -/
abbrev specRows (c : Dev nD) : S8192x1024.Idx → EReal :=
  shapeCast S8192x1024 (spec m c) shapeCasts_S4x2048x1024_S8192x1024

/-- Row r = 2048·b + s of the re-laid specification is its row (b, s). -/
theorem specRows_apply (c : Dev nD) (r : Fin 8192) (q : Fin 1024) (b : Fin 4) (s : Fin 2048) (hr : r.val = 2048 * b.val + s.val) :
    specRows m c (ix2 r q) = spec m c (ix3 b s q) :=
  shapeCast_apply _ _ (ix2 r q) (ix3 b s q) (by
    rw [Shape.rowMajor_val_three, Shape.rowMajor_val_two]
    show (b.val * 2048 + s.val) * 1024 + q.val = r.val * 1024 + q.val
    omega)

/-! ## One point -/

/-- The stored entry is the specification's, for a tile whose row is row (b, s) of the activations and whose two
    tables are the dequantised ones. -/
theorem stored_eq_spec (xb : Vec Ideal S256x1024 .f32) (tab : Vec Ideal S6144x1024 .bf16) (dn : Vec Ideal S1024x3072 .bf16)
    (x : Act.Idx → EReal) (wg wu : WUp.Idx → BitVec 32) (wd : WDown.Idx → BitVec 32) (b : Fin 4) (s : Fin 2048) (j : S256x1024.Idx)
    (hx : ∀ k : Fin 1024, xb (ix2 (j 0) k) = x (ix3 b s k))
    (hg : ∀ (h : Fin 3072) (k : Fin 1024), tab (ix2 (⟨h.val, by have := h.isLt; omega⟩ : Fin 6144) k) = deq (wg (ix2 h k)))
    (hu : ∀ (h : Fin 3072) (k : Fin 1024), tab (ix2 (⟨3072 + h.val, by have := h.isLt; omega⟩ : Fin 6144) k) = deq (wu (ix2 h k)))
    (hd : ∀ (q : Fin 1024) (h : Fin 3072), dn (ix2 q h) = deq (wd (ix2 q h))) :
    k0_pay1 (F := Ideal) xb tab dn j = out x wg wu wd (ix3 b s (j 1)) := by
  obtain ⟨p, q, rfl⟩ : ∃ (p : Fin 256) (q : Fin 1024), j = ix2 p q := ⟨j 0, j 1, eq_ix2 j⟩
  rw [stored_apply]
  show _ = ∑ h : Fin 3072, hid x wg wu b s h * deq (wd (ix2 q h))
  refine Finset.sum_congr rfl fun h _ => ?_
  rw [tileHid_eq xb tab x wg wu b s p hx hg hu h, hd]

theorem hz : (![0, 0] : Fin 2 → Nat) = fun _ => 0 := funext fun a => by fin_cases a <;> rfl

/-- The printed index maps over the grid: the activations' window and the result's are on row band t, the two
    tables' windows stay at the origin. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- What point t writes back is band t of the re-laid specification. -/
theorem flushed_eq (c : Dev nD) (t : Fin cfg0.N) :
    (dats m 0 c).flushed 3 t = ((cfg0.win 3).blk t).view.read (Elt Ideal) (specRows m c) := by
  show (cfg0.win 3).cut (grid0.coords t) ((dats m 0 c).after 3 t) = _
  rw [after0_3]
  unfold out0_3
  rw [View.canon_unit_zero hz]
  simp only [View.ld_unit_zero (S := S256x1024) hz, View.ld_unit_zero (S := S6144x1024) hz, View.ld_unit_zero (S := S1024x3072) hz]
  obtain ⟨e00, e01, e10, e11, e20, e21, e30, e31⟩ := idx_facts t
  have ht : t.val < 32 := lt_of_lt_of_eq t.isLt N_0
  funext j
  have hj0 : (j 0).val < 256 := (j 0).isLt
  have hj1 : (j 1).val < 1024 := (j 1).isLt
  show k0_pay1 (F := Ideal) (iblk m c 0 t) (iblk m c 1 t) (iblk m c 2 t) j = specRows m c (((cfg0.win 3).blk t).view.emb j)
  refine (stored_eq_spec (iblk m c 0 t) (iblk m c 1 t) (iblk m c 2 t) (argX m c) (argG m c) (argU m c) (argD m c)
    (⟨(256 * t.val + (j 0).val) / 2048, by omega⟩ : Fin 4) (⟨(256 * t.val + (j 0).val) % 2048, by omega⟩ : Fin 2048) j ?_ ?_ ?_ ?_).trans ?_
  · intro k
    have he : ((cfg0.win 0).blk t).view.emb (ix2 (j 0) k) = ix2 (⟨256 * t.val + (j 0).val, by omega⟩ : Fin 8192) k := by
      funext a; apply Fin.ext
      match a with
      | ⟨0, _⟩ => show win0_0.index t (0 : Fin 2) * 256 + 1 * (j 0).val = 256 * t.val + (j 0).val; omega
      | ⟨1, _⟩ => show win0_0.index t (1 : Fin 2) * 1024 + 1 * k.val = k.val; omega
    show V m c main_v0 (((cfg0.win 0).blk t).view.emb (ix2 (j 0) k)) = _
    rw [he]
    exact rows_apply m c _ k _ _ (by
      show 256 * t.val + (j 0).val = 2048 * ((256 * t.val + (j 0).val) / 2048) + (256 * t.val + (j 0).val) % 2048
      omega)
  · intro h k
    have hh : h.val < 3072 := h.isLt
    have he : ((cfg0.win 1).blk t).view.emb (ix2 (⟨h.val, by omega⟩ : Fin 6144) k) = ix2 (⟨h.val, by omega⟩ : Fin 6144) k := by
      funext a; apply Fin.ext
      match a with
      | ⟨0, _⟩ => show win0_1.index t (0 : Fin 2) * 6144 + 1 * h.val = h.val; omega
      | ⟨1, _⟩ => show win0_1.index t (1 : Fin 2) * 1024 + 1 * k.val = k.val; omega
    show V m c main_v13 (((cfg0.win 1).blk t).view.emb (ix2 (⟨h.val, by omega⟩ : Fin 6144) k)) = _
    rw [he]
    exact stacked_gate_apply m c h k
  · intro h k
    have hh : h.val < 3072 := h.isLt
    have he : ((cfg0.win 1).blk t).view.emb (ix2 (⟨3072 + h.val, by omega⟩ : Fin 6144) k) = ix2 (⟨3072 + h.val, by omega⟩ : Fin 6144) k := by
      funext a; apply Fin.ext
      match a with
      | ⟨0, _⟩ => show win0_1.index t (0 : Fin 2) * 6144 + 1 * (3072 + h.val) = 3072 + h.val; omega
      | ⟨1, _⟩ => show win0_1.index t (1 : Fin 2) * 1024 + 1 * k.val = k.val; omega
    show V m c main_v13 (((cfg0.win 1).blk t).view.emb (ix2 (⟨3072 + h.val, by omega⟩ : Fin 6144) k)) = _
    rw [he]
    exact stacked_up_apply m c h k
  · intro q h
    have he : ((cfg0.win 2).blk t).view.emb (ix2 q h) = ix2 q h := by
      funext a; apply Fin.ext
      match a with
      | ⟨0, _⟩ => show win0_2.index t (0 : Fin 2) * 1024 + 1 * q.val = q.val; omega
      | ⟨1, _⟩ => show win0_2.index t (1 : Fin 2) * 3072 + 1 * h.val = h.val; omega
    show V m c main_v12 (((cfg0.win 2).blk t).view.emb (ix2 q h)) = _
    rw [he]
    exact down_apply m c q h
  · have he : ((cfg0.win 3).blk t).view.emb j = ix2 (⟨256 * t.val + (j 0).val, by omega⟩ : Fin 8192) (⟨(j 1).val, hj1⟩ : Fin 1024) := by
      funext a; apply Fin.ext
      match a with
      | ⟨0, _⟩ => show win0_3.index t (0 : Fin 2) * 256 + 1 * (j 0).val = 256 * t.val + (j 0).val; omega
      | ⟨1, _⟩ => show win0_3.index t (1 : Fin 2) * 1024 + 1 * (j 1).val = (j 1).val; omega
    rw [he]
    exact (specRows_apply m c _ _ _ _ (by
      show 256 * t.val + (j 0).val = 2048 * ((256 * t.val + (j 0).val) / 2048) + (256 * t.val + (j 0).val) % 2048
      omega)).symm

/-! ## The cover, and the array after the call -/

/-- An index of the result array is in point t's band iff each coordinate is in the band's range on its axis. -/
theorem mem_band (t : Fin cfg0.N) (i : S8192x1024.Idx) :
    i ∈ ((cfg0.win 3).blk t).view.set ↔ ∀ a : Fin 2, win0_3.index t a * S256x1024.size a ≤ (i a).val ∧ (i a).val < win0_3.index t a * S256x1024.size a + S256x1024.size a := by
  show i ∈ ((View.whole main_v14).slice (win0_3.rect t)).set ↔ _
  rw [View.set_slice_whole, Rect.mem_set_unit]
  exact Iff.rfl

/-- Row r lies in the band of point r / 256, which writes back. -/
theorem bands_cover (i : S8192x1024.Idx) :
    ∃ t : Fin cfg0.N, (cfg0.win 3).flush t = true ∧ i ∈ ((cfg0.win 3).blk t).view.set := by
  have hi0 : (i 0).val < 8192 := (i 0).isLt
  have hi1 : (i 1).val < 1024 := (i 1).isLt
  obtain ⟨t, ht⟩ : ∃ t : Fin cfg0.N, t.val = (i 0).val / 256 :=
    ⟨⟨(i 0).val / 256, lt_of_lt_of_eq (by omega : (i 0).val / 256 < 32) N_0.symm⟩, rfl⟩
  obtain ⟨-, -, -, -, -, -, e30, e31⟩ := idx_facts t
  refine ⟨t, flush0_3 t, ?_⟩
  rw [mem_band]
  intro a
  match a with
  | ⟨0, _⟩ => show win0_3.index t (0 : Fin 2) * 256 ≤ (i 0).val ∧ (i 0).val < win0_3.index t (0 : Fin 2) * 256 + 256; omega
  | ⟨1, _⟩ => show win0_3.index t (1 : Fin 2) * 1024 ≤ (i 1).val ∧ (i 1).val < win0_3.index t (1 : Fin 2) * 1024 + 1024; omega

/-- After the call the result array is the specification re-laid as 8192 rows. -/
theorem final (c : Dev nD) : (dats m 0 c).arrAt 3 cfg0.N = specRows m c :=
  (dats m 0 c).arrAt_eq_of_cover 3 (specRows m c) (fun t _ => flushed_eq m c t) bands_cover

/-! ## The host line after the call, and the run -/

/-- The program's result: the call's result array laid back out as 4 × 2048 × 1024 is the specification. -/
theorem result_eq (c : Dev nD) :
    Pipeline.afterTail₀ cfgs (dats m) 0 (V0 m) [hostOps1] c main_v15 = spec m c := by
  unfold Pipeline.afterTail₀
  show StableHlo.after hostOps1 _ (Proc.devRef .tc main_v15) = _
  after_results
  show shapeCast S4x2048x1024 (Pipeline.withArrays (cfgs 0).spec c (V0 m c) (fun w => (dats m 0 c).arrAt w (cfgs 0).N)
    (Proc.devRef .tc main_v14)) shapeCasts_S8192x1024_S4x2048x1024 = _
  rw [show Pipeline.withArrays (cfgs 0).spec c (V0 m c) (fun w => (dats m 0 c).arrAt w (cfgs 0).N) (Proc.devRef .tc main_v14)
      = (dats m 0 c).arrAt 3 cfg0.N from Pipeline.withArrays_arr spec0 launch0.win.arr_inj c _ _ 3]
  rw [final]
  exact shapeCast_shapeCast _ _ _

/-- Every weakly fair execution of the idealized kernel program terminates with its result at the specification of the
    launched arguments, the arguments unchanged. -/
theorem run : θ_run defs (onTc (τ := τ) (main (F := Ideal))) ⟨m, fun _ => 0, ρ⟩ fun r => ∀ c : Dev nD,
      r.2.mem ((c.tc : Thread nD τ).loc main_v15) = spec m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v15 (Pipeline.mem_restRefs_of main_v15 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.KValue

end
-- ==== Proof.RefValue.lean ====
/-
  The reference computes the specification.

  Read one operation at a time, the reference dequantises each table entry as (integer)·c, forms the
  gate and up values as the contraction of a row of activations with a row of a dequantised table,
  spells the logistic function of the gate as 1 / (1 + e^(-gate)) with the literal one, multiplies
  (gate · that) · up, and contracts the hidden row with a row of the dequantised down table. Index by
  index that is `Swiglu.out`: the only step that is not a renaming of indices is that the spelled
  logistic is the logistic function, which is its definition.
-/
import proofs.«426624_j52106543235557_3_alg».proof.Proof.Gen.ReferenceIdeal.Read
import proofs.«426624_j52106543235557_3_alg».proof.Proof.Spec

noncomputable section

namespace Cert.ReferenceIdeal.RefValue

open Cert.ReferenceIdeal Cert.ReferenceIdeal.Gen Cert.ReferenceIdeal.Read
open Idealize.ShloMosaic Idealize.ShloMosaic.ValueIdx Cert.Swiglu

/-- An entry of the dequantised gate table. -/
theorem gateTable_apply (w : (⟨S3072x1024, .i32⟩ : BufTy).Contents (Elt Ideal)) (i : S3072x1024.Idx) :
    val_main_v2 (F := Ideal) w i = deq (w i) := by
  rw [val_main_v2_apply, val_main_v0_apply, val_main_v1_apply, val_main_cst_apply]; rfl

/-- An entry of the dequantised up table. -/
theorem upTable_apply (w : (⟨S3072x1024, .i32⟩ : BufTy).Contents (Elt Ideal)) (i : S3072x1024.Idx) :
    val_main_v5 (F := Ideal) w i = deq (w i) := by
  rw [val_main_v5_apply, val_main_v3_apply, val_main_v4_apply, val_main_cst_0_apply]; rfl

/-- An entry of the dequantised down table. -/
theorem downTable_apply (w : (⟨S1024x3072, .i32⟩ : BufTy).Contents (Elt Ideal)) (i : S1024x3072.Idx) :
    val_main_v8 (F := Ideal) w i = deq (w i) := by
  rw [val_main_v8_apply, val_main_v6_apply, val_main_v7_apply, val_main_cst_1_apply]; rfl

/-- The gate value at (b,s,h) is the projection of row (b,s) on row h of the gate table. -/
theorem gate_apply (x : (⟨S4x2048x1024, .f32⟩ : BufTy).Contents (Elt Ideal)) (wg : (⟨S3072x1024, .i32⟩ : BufTy).Contents (Elt Ideal))
    (b : Fin 4) (s : Fin 2048) (h : Fin 3072) :
    val_main_v9 (F := Ideal) x wg (ix3 b s h) = proj x wg b s h := by
  rw [val_main_v9_apply]
  unfold proj
  refine Finset.sum_congr rfl fun k _ => ?_
  have el : lidx_main_v9 (ix3 b s h) k = ix3 b s k :=
    funext fun a => Fin.ext (by match a with | ⟨0, _⟩ => rfl | ⟨1, _⟩ => rfl | ⟨2, _⟩ => rfl)
  have er : ridx_main_v9 (ix3 b s h) k = ix2 h k :=
    funext fun a => Fin.ext (by match a with | ⟨0, _⟩ => rfl | ⟨1, _⟩ => rfl)
  rw [el, er, gateTable_apply]

/-- The up value at (b,s,h) is the projection of row (b,s) on row h of the up table. -/
theorem up_apply (x : (⟨S4x2048x1024, .f32⟩ : BufTy).Contents (Elt Ideal)) (wu : (⟨S3072x1024, .i32⟩ : BufTy).Contents (Elt Ideal))
    (b : Fin 4) (s : Fin 2048) (h : Fin 3072) :
    val_main_v10 (F := Ideal) x wu (ix3 b s h) = proj x wu b s h := by
  rw [val_main_v10_apply]
  unfold proj
  refine Finset.sum_congr rfl fun k _ => ?_
  have el : lidx_main_v10 (ix3 b s h) k = ix3 b s k :=
    funext fun a => Fin.ext (by match a with | ⟨0, _⟩ => rfl | ⟨1, _⟩ => rfl | ⟨2, _⟩ => rfl)
  have er : ridx_main_v10 (ix3 b s h) k = ix2 h k :=
    funext fun a => Fin.ext (by match a with | ⟨0, _⟩ => rfl | ⟨1, _⟩ => rfl)
  rw [el, er, upTable_apply]

/-- The hidden value at (b,s,h): the gate times the spelled logistic of the gate, times the up value. -/
theorem hidden_apply (x : (⟨S4x2048x1024, .f32⟩ : BufTy).Contents (Elt Ideal)) (wg wu : (⟨S3072x1024, .i32⟩ : BufTy).Contents (Elt Ideal))
    (b : Fin 4) (s : Fin 2048) (h : Fin 3072) :
    val_main_v12 (F := Ideal) x wg wu (ix3 b s h) = hid x wg wu b s h := by
  rw [val_main_v12_apply, val_main_v11_apply, val_main_call0_v5_apply, val_main_call0_v4_apply, val_main_call0_cst_0_apply,
    val_main_call0_v3_apply, val_main_call0_v2_apply, val_main_call0_cst_apply, val_main_call0_v1_apply,
    val_main_call0_v0_apply, gate_apply, up_apply]
  unfold hid
  rw [← logistic_spelled]
  rfl

/-- The reference's result is the specification of its arguments. -/
theorem result_eq (x : (⟨S4x2048x1024, .f32⟩ : BufTy).Contents (Elt Ideal)) (wg wu : (⟨S3072x1024, .i32⟩ : BufTy).Contents (Elt Ideal))
    (wd : (⟨S1024x3072, .i32⟩ : BufTy).Contents (Elt Ideal)) :
    val_main_v13 (F := Ideal) x wg wu wd = out x wg wu wd := by
  funext i
  obtain ⟨b, s, d, rfl⟩ : ∃ (b : Fin 4) (s : Fin 2048) (d : Fin 1024), i = ix3 b s d := ⟨i 0, i 1, i 2, eq_ix3 i⟩
  rw [val_main_v13_apply]
  show _ = ∑ h : Fin 3072, hid x wg wu b s h * deq (wd (ix2 d h))
  refine Finset.sum_congr rfl fun h _ => ?_
  have el : lidx_main_v13 (ix3 b s d) h = ix3 b s h :=
    funext fun a => Fin.ext (by match a with | ⟨0, _⟩ => rfl | ⟨1, _⟩ => rfl | ⟨2, _⟩ => rfl)
  have er : ridx_main_v13 (ix3 b s d) h = ix2 d h :=
    funext fun a => Fin.ext (by match a with | ⟨0, _⟩ => rfl | ⟨1, _⟩ => rfl)
  rw [el, er, hidden_apply, downTable_apply]

end Cert.ReferenceIdeal.RefValue

end
-- ==== Proof.lean ====
/-
  A quantised gated feed-forward layer: a tiled kernel against its plain definition, over the extended reals.

  Both programs take activations x (4 × 2048 × 1024) and three tables of stored integers and compute

      out[b,s,d] = Σ_h ( g · σ(g) · u ) · (wd[d,h]·c),
      g = Σ_k x[b,s,k]·(wg[h,k]·c),   u = Σ_k x[b,s,k]·(wu[h,k]·c),   σ(t) = 1 / (1 + e^(-t)),

  with c one shared scale constant (Proof/Spec.lean states this function).

  The reference computes it directly: three contractions over whole arrays, with σ spelled out by its definition
  (Proof/RefValue.lean). The kernel re-lays the activations as 8192 rows, stacks the gate table over the up table,
  and at each of 32 grid points takes a band of 256 rows, forms both projections in one product against the stacked
  table, splits that product into its gate half and its up half, and contracts the hidden band with the down table
  (Proof/KernelBody.lean: the stored entry; Proof/KernelArrays.lean: the staged arrays; Proof/KernelValue.lean: the
  bands tile the rows, and laying the result back out undoes the re-laying). Each contraction runs over the whole
  contracted axis on both sides, a change of float format is the identity, and a finite sum of extended reals does
  not depend on how its rows are grouped, so the two results agree entry by entry with no appeal to the inputs being
  finite. The idealization rewrote nothing, so the preservation claim is trivial; the two kernel frames are the
  generated ones and the reference's frame is its generated run with the result dropped.
-/
import proofs.«426624_j52106543235557_3_alg».proof.Defs
import proofs.«426624_j52106543235557_3_alg».proof.Proof.Gen.Kernel
import proofs.«426624_j52106543235557_3_alg».proof.Proof.Gen.Kernel.Skeleton
import proofs.«426624_j52106543235557_3_alg».proof.Proof.Gen.Kernel.Launch
import proofs.«426624_j52106543235557_3_alg».proof.Proof.Gen.Kernel.Points
import proofs.«426624_j52106543235557_3_alg».proof.Proof.Gen.Kernel.Frame
import proofs.«426624_j52106543235557_3_alg».proof.Proof.Gen.KernelIdeal
import proofs.«426624_j52106543235557_3_alg».proof.Proof.Gen.KernelIdeal.Skeleton
import proofs.«426624_j52106543235557_3_alg».proof.Proof.Gen.KernelIdeal.Launch
import proofs.«426624_j52106543235557_3_alg».proof.Proof.Gen.KernelIdeal.Points
import proofs.«426624_j52106543235557_3_alg».proof.Proof.Gen.KernelIdeal.Frame
import proofs.«426624_j52106543235557_3_alg».proof.Proof.Gen.ReferenceIdeal
import proofs.«426624_j52106543235557_3_alg».proof.Proof.Gen.Pre_finite_inputs
import proofs.«426624_j52106543235557_3_alg».proof.Proof.Gen.ReferenceIdeal.Run
import proofs.«426624_j52106543235557_3_alg».proof.Proof.Gen.ReferenceIdeal.Read
import proofs.«426624_j52106543235557_3_alg».proof.Proof.KernelValue
import proofs.«426624_j52106543235557_3_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end at the specification of the (agreeing) arguments. -/
theorem algebraic : Cert.algebraic_KernelIdeal_ReferenceIdeal := by
  intro m ρ m' ρ' _ hagree
  refine ⟨fun c => Cert.KernelIdeal.KValue.spec m c, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v13_eq, Cert.ReferenceIdeal.RefValue.result_eq,
    (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
